-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x128 : Shape := ⟨3, ![4, 8192, 128]⟩
abbrev S1x128 : Shape := ⟨2, ![1, 128]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S4x8192x128 .f32) (main_arg1 : FVec F S4x8192x128 .f32) (main_arg2 : FVec F S1x128 .f32) : IVec S_ 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S4x8192x128 .f32 := Host.absf main_arg1
  let main_cst_0 : FVec F S_ .f32 := constant S_ .f32 0x7F800000#32
  let main_v5 : FVec F S4x8192x128 .f32 := broadcastInDim S4x8192x128 ![] bcast_S_S4x8192x128 main_cst_0
  let main_v6 : IVec S4x8192x128 1 := cmpf .olt main_v4 main_v5
  let main_c_1 : IVec S_ 1 := constantI S_ 1 1#1
  let main_v7 : IVec S_ 1 := (fun x v => Host.reduce IntOp.andi x v reducesTo_S4x8192x128_S_d0_1_2 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S4x8192x128 : Shape := ⟨3, ![4, 8192, 128]⟩
abbrev S1x128 : Shape := ⟨2, ![1, 128]⟩
abbrev S1x8192x8192 : Shape := ⟨3, ![1, 8192, 8192]⟩
abbrev S1x1024x128 : Shape := ⟨3, ![1, 1024, 128]⟩
abbrev S1x1024x1024 : Shape := ⟨3, ![1, 1024, 1024]⟩
abbrev S1024x128 : Shape := ⟨2, ![1024, 128]⟩
abbrev S128x1024 : Shape := ⟨2, ![128, 1024]⟩
abbrev S1024x1024 : Shape := ⟨2, ![1024, 1024]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S4x8192x128, .f32⟩
  | .hbm, ⟨1, _⟩ => ⟨S4x8192x128, .f32⟩
  | .hbm, ⟨2, _⟩ => ⟨S1x128, .f32⟩
  | .hbm, ⟨3, _⟩ => ⟨S1x8192x8192, .f32⟩
  | .hbm, ⟨4, _⟩ => ⟨S1x128, .f32⟩
  | .hbm, ⟨5, _⟩ => ⟨S1x128, .f32⟩
  | .hbm, ⟨6, _⟩ => ⟨S_, .f32⟩
  | .hbm, ⟨7, _⟩ => ⟨S1x128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_12 : BitVec 32 := 0#32
  let v20 : BitVec 1 := Scalar.cmpi .ne v19 c0_i32_12
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  transposes_S1024x128_p1_0_S128x1024 : S1024x128.Transposes [1, 0] S128x1024
  shapeCasts_S1x1024x1024_S1024x1024 : S1x1024x1024.ShapeCasts S1024x1024
  shapeCasts_S1024x1024_S1x1024x1024 : S1024x1024.ShapeCasts S1x1024x1024
  bcast_S_S1x128 : S_.BroadcastsInDim S1x128 (![] : Fin 0 → Fin S1x128.rank)
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x8192x128.size a
  hwx0_0 : ∀ i : grid0.Coords, EltTy.bits .f32 = 32 ∨ (Rect.block (s := S4x8192x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x8192x128.size a
  hwx0_1 : ∀ i : grid0.Coords, EltTy.bits .f32 = 32 ∨ (Rect.block (s := S4x8192x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S1x8192x8192.size a
  hwx0_2 : ∀ i : grid0.Coords, EltTy.bits .f32 = 32 ∨ (Rect.block (s := S1x8192x8192) S1x1024x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8192x128 : Shape := ⟨3, ![4, 8192, 128]⟩
abbrev S1x128 : Shape := ⟨2, ![1, 128]⟩
abbrev S_ : Shape := ⟨0, ![]⟩
abbrev S4x8192x8192 : Shape := ⟨3, ![4, 8192, 8192]⟩
abbrev S8192x8192 : Shape := ⟨2, ![8192, 8192]⟩
abbrev S1x8192x8192 : Shape := ⟨3, ![1, 8192, 8192]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S4x8192x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S_, .f32⟩
  | .hbm, ⟨6, _⟩ => ⟨S1x128, .f32⟩
  | .hbm, ⟨7, _⟩ => ⟨S1x128, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S_, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S8192x8192, .f32⟩
  | .hbm, ⟨22, _⟩ => ⟨S1x8192x8192, .f32⟩
  | .hbm, ⟨23, _⟩ => ⟨S_, .f32⟩
  | .hbm, ⟨24, _⟩ => ⟨S1x8192x8192, .f32⟩
  | .hbm, ⟨25, _⟩ => ⟨S1x8192x8192, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1x128 : S_.BroadcastsInDim S1x128 (![] : Fin 0 → Fin S1x128.rank)
  bcast_S_S4x8192x8192 : S_.BroadcastsInDim S4x8192x8192 (![] : Fin 0 → Fin S4x8192x8192.rank)
  reducesTo_S4x8192x8192_S8192x8192_d0 : S4x8192x8192.ReducesTo [0] S8192x8192
  h_S_ : 0 < S_.numel
  bcast_S8192x8192_S1x8192x8192_1_2 : S8192x8192.BroadcastsInDim S1x8192x8192 (![1, 2] : Fin 2 → Fin S1x8192x8192.rank)
  bcast_S_S1x8192x8192 : S_.BroadcastsInDim S1x8192x8192 (![] : Fin 0 → Fin S1x8192x8192.rank)
  dot_S4x8192x128_S4x8192x128_S4x8192x8192_2_2_1_1_0_0_wf : DotDims.WF S4x8192x128 S4x8192x128 S4x8192x8192 [2] [2] [1] [1] [0] [0]

variable [Facts₀]

def dot_S4x8192x128_S4x8192x128_S4x8192x8192_2_2_1_1_0_0 : DotDims S4x8192x128 S4x8192x128 S4x8192x8192 where
  lhsContracting := [2]
  rhsContracting := [2]
  lhsNonContracting := [1]
  rhsNonContracting := [1]
  lhsBatch := [0]
  rhsBatch := [0]
  wf := dot_S4x8192x128_S4x8192x128_S4x8192x8192_2_2_1_1_0_0_wf

class Facts : Prop extends Facts₀ where

variable [Facts]
-- ==== Proof.EdgeSpec.lean ====
/-
  The specification: an edge's probability is the mean, over the four posterior samples, of the logistic of the
  inner product of the two nodes' embeddings in that sample.

    score b n m = Σ_d z1[b, n, d] · z2[b, m, d]          (the 128 coordinates of the embeddings)
    edge (0, n, m) = (Σ_b logistic (score b n m)) · ¼     (the four samples)

  Two spellings of that mean meet here. One adds the four terms in sample order onto a zero and multiplies by the
  dyadic 0.25; the other adds the whole sum onto a zero and divides by 4. Over the extended reals they are one
  number: addition is associative with 0 neutral, and dividing by the real 4 IS multiplying by the real ¼
  (on the infinities too).
-/
import Idealize.ShloMosaic.PureOps.Ideal
import Idealize.ShloMosaic.PureOps.Ideal.Laws
import Idealize.ShloMosaic.Lib.ValueIdx

noncomputable section

namespace Cert.EdgeMean

open Idealize.ShloMosaic Idealize.ShloMosaic.ValueIdx

/-- The two embedding arrays: sample × node × coordinate. -/
abbrev SEmb : Shape := ⟨3, ![4, 8192, 128]⟩
/-- The edge array: one leading unit axis, then node × node. -/
abbrev SEdge : Shape := ⟨3, ![1, 8192, 8192]⟩

/-- The inner product of node `n`'s embedding in `z1` with node `m`'s in `z2`, both of sample `b`. -/
def score (z1 z2 : SEmb.Idx → EReal) (b : Fin 4) (n m : Fin 8192) : EReal :=
  ∑ d : Fin 128, z1 (ix3 b n d) * z2 (ix3 b m d)

/-- The logistic of that inner product: the edge's probability in sample `b`. -/
def prob (z1 z2 : SEmb.Idx → EReal) (b : Fin 4) (n m : Fin 8192) : EReal :=
  Ideal.logistic (score z1 z2 b n m)

/-- The quarter the mean multiplies by, as the real it is. -/
abbrev quarter : EReal := ((1 / 4 : ℝ) : EReal)

/-- The edge array: the mean of the four samples' probabilities. -/
def edge (z1 z2 : SEmb.Idx → EReal) : SEdge.Idx → EReal := fun i =>
  (∑ b : Fin 4, prob z1 z2 b (i 1) (i 2)) * quarter

/-- The pattern of `0.25` denotes the real ¼. -/
theorem ofBits_quarter : Ideal.ofBits .f32 0x3E800000#32 = quarter := by
  simp [Ideal.ofBits, Ideal.ieee, -EReal.coe_mul]; norm_num

/-- The pattern of `4.0` denotes the real 4. -/
theorem ofBits_four : Ideal.ofBits .f32 0x40800000#32 = ((4 : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

/-- Four terms added in order onto the zero pattern, then scaled by the pattern of 0.25: the mean. -/
theorem chain_quarter (p : Fin 4 → EReal) :
    ((((Ideal.ofBits .f32 0x00000000#32 + p 0) + p 1) + p 2) + p 3) * Ideal.ofBits .f32 0x3E800000#32
      = (∑ b : Fin 4, p b) * quarter := by
  rw [Ideal.ofBits_zero_f32, zero_add, ofBits_quarter, Fin.sum_univ_four]

/-- The mean's numerator as it grows: the zero pattern plus sample 0's term, then one more sample's term per step. -/
def partialSum (P : Fin 4 → EReal) : ℕ → EReal
  | 0 => Ideal.ofBits .f32 0x00000000#32 + P 0
  | j + 1 => partialSum P j + P ⟨(j + 1) % 4, Nat.mod_lt _ (by decide)⟩

/-- After the fourth sample, scaled by the pattern of 0.25, it is the mean. -/
theorem partialSum_mean (P : Fin 4 → EReal) :
    partialSum P 3 * Ideal.ofBits .f32 0x3E800000#32 = (∑ b : Fin 4, P b) * quarter :=
  chain_quarter P

/-- The whole sum added onto the zero pattern, then divided by the pattern of 4.0: the mean. -/
theorem sum_div_four (p : Fin 4 → EReal) :
    Ideal.div (Ideal.ofBits .f32 0x00000000#32 + ∑ b : Fin 4, p b) (Ideal.ofBits .f32 0x40800000#32)
      = (∑ b : Fin 4, p b) * quarter := by
  rw [Ideal.ofBits_zero_f32, zero_add, ofBits_four, Ideal.div_coe (by norm_num : (4 : ℝ) ≠ 0)]

end Cert.EdgeMean

end
-- ==== Proof.RefEdge.lean ====
/-
  The reference computes the specification. Read one operation at a time, its edge array at (0, n, m) is
  (0 + Σ_b 1 / (1 + exp (−Σ_d z1[b, n, d] · z2[b, m, d]))) / 4: the contraction over the 128 coordinates, the
  logistic spelled out as negate, exponential, add one, reciprocal, the sum over the four samples from a zero, the
  division by four. The spelled-out logistic is the logistic's definition over the extended reals, and the sum from
  zero divided by four is the mean.
-/
import proofs.«172165_j80668075754166_1_alg».proof.Proof.Gen.ReferenceIdeal.Read
import proofs.«172165_j80668075754166_1_alg».proof.Proof.EdgeSpec

noncomputable section

namespace Cert.ReferenceIdeal.RefValue

open Cert.ReferenceIdeal Cert.ReferenceIdeal.Gen Cert.ReferenceIdeal.Read
open Idealize.ShloMosaic Idealize.ShloMosaic.ValueIdx Cert.EdgeMean

/-- Where the contraction reads `z1` for sample `b`'s term of edge `i`: node `i 1`, coordinate `d`. -/
theorem left_at (i : S1x8192x8192.Idx) (b : Fin 4) (d : Fin 128) :
    lidx_main_v6 (idx_main_v13 (idx_main_v14 i) b) d = ix3 b (i 1) d :=
  funext fun a => Fin.ext (by match a with | ⟨0, _⟩ => rfl | ⟨1, _⟩ => rfl | ⟨2, _⟩ => rfl)

/-- Where it reads `z2`: node `i 2`, coordinate `d`. -/
theorem right_at (i : S1x8192x8192.Idx) (b : Fin 4) (d : Fin 128) :
    ridx_main_v6 (idx_main_v13 (idx_main_v14 i) b) d = ix3 b (i 2) d :=
  funext fun a => Fin.ext (by match a with | ⟨0, _⟩ => rfl | ⟨1, _⟩ => rfl | ⟨2, _⟩ => rfl)

/-- The reference's edge array is the mean of the four samples' probabilities. -/
theorem ref_edge (z1 z2 : SEmb.Idx → EReal) : val_main_v16 (F := Ideal) z1 z2 = edge z1 z2 := by
  funext i
  rw [val_main_v16_apply, val_main_v14_apply, val_main_v13_apply, val_main_v15_apply, val_main_cst_4_apply,
    val_main_cst_3_apply]
  simp only [val_main_v12_apply, val_main_v11_apply, val_main_cst_2_apply, val_main_v10_apply, val_main_v9_apply,
    val_main_cst_1_apply, val_main_v8_apply, val_main_v7_apply, val_main_v6_apply, left_at, right_at,
    Ideal.hostDivf_def, Ideal.addf_def, Ideal.hostUnary_exp_def, Ideal.hostNegf_def, Ideal.negf_def, Ideal.ofBits_def]
  rw [sum_div_four]
  simp only [ofBits_one]
  rfl

end Cert.ReferenceIdeal.RefValue

end
-- ==== Proof.Pieces.lean ====
/-
  What one grid point leaves behind, case by case, as the body's own arithmetic.

  The body keeps a running tile in a scratch buffer. At a sample's first point it clears the tile and adds the
  sample's term; at a middle point it adds the term onto what the point before left; at the last point it adds the
  term and also writes the output block: the updated tile times a quarter. Each store covers its whole buffer, so
  what a buffer holds afterwards is the last store's value, and a load after a store reads that store's value.

    first point :  tile := step x0 x1 cleared
    middle point:  tile := step x0 x1 tile
    last point  :  tile := step x0 x1 tile;   block := scaled (step x0 x1 tile)

  where `step` is the accumulating store's value (add the logistic of the block product onto the tile), `cleared`
  the zero tile and `scaled` the output store's value.
-/
import proofs.«172165_j80668075754166_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

/-- Every store and load of the body starts at the origin of its buffer. -/
theorem origin : (![0, 0, 0] : Fin 3 → Nat) = fun _ => 0 := funext fun a => by fin_cases a <;> rfl

/-- A middle point leaves the tile at the accumulating store's value over what it found. -/
theorem tile_middle (c : Dev nD) (i : grid0.Coords) (a3 : Memref sig .tc .vmem S1x1024x128 .f32) (h3 : a3.IsWhole)
    (a4 : Memref sig .tc .vmem S1x1024x128 .f32) (h4 : a4.IsWhole) (a5 : Memref sig .tc .vmem S1x1024x1024 .f32) (h5 : a5.IsWhole)
    (a6 : Memref sig .tc .vmem S1x1024x1024 .f32) (h6 : a6.IsWhole) (hc0 : ¬cond0_0 i) (hc1 : ¬cond0_1 i)
    (x0 x1 : Vec F S1x1024x128 .f32) (xs : Vec F S1x1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero origin]
  simp only [View.readAt_eq_ld, h3.read_unread, h4.read_unread, h6.read_unread,
    View.ld_unit_zero (S := S1x1024x128) origin, View.ld_unit_zero (S := S1x1024x1024) origin]

/-- A first point clears the tile, reads the cleared tile back, and leaves the accumulating store's value over it. -/
theorem tile_first (c : Dev nD) (i : grid0.Coords) (a3 : Memref sig .tc .vmem S1x1024x128 .f32) (h3 : a3.IsWhole)
    (a4 : Memref sig .tc .vmem S1x1024x128 .f32) (h4 : a4.IsWhole) (a5 : Memref sig .tc .vmem S1x1024x1024 .f32) (h5 : a5.IsWhole)
    (a6 : Memref sig .tc .vmem S1x1024x1024 .f32) (h6 : a6.IsWhole) (hc0 : cond0_0 i) (hc1 : ¬cond0_1 i)
    (x0 x1 : Vec F S1x1024x128 .f32) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1x1024x1024) origin, View.readCov_unit_zero (S := S1x1024x1024) _ origin]
  simp only [View.readAt_eq_ld, h3.read_unread, h4.read_unread,
    View.ld_unit_zero (S := S1x1024x128) origin, View.ld_unit_zero (S := S1x1024x1024) origin]

/-- A last point leaves the tile as a middle point does, -/
theorem tile_last (c : Dev nD) (i : grid0.Coords) (a3 : Memref sig .tc .vmem S1x1024x128 .f32) (h3 : a3.IsWhole)
    (a4 : Memref sig .tc .vmem S1x1024x128 .f32) (h4 : a4.IsWhole) (a5 : Memref sig .tc .vmem S1x1024x1024 .f32) (h5 : a5.IsWhole)
    (a6 : Memref sig .tc .vmem S1x1024x1024 .f32) (h6 : a6.IsWhole) (hc0 : ¬cond0_0 i) (hc1 : cond0_1 i)
    (x0 x1 : Vec F S1x1024x128 .f32) (xs : Vec F S1x1024x1024 .f32) :
    sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero origin]
  simp only [View.readAt_eq_ld, h3.read_unread, h4.read_unread, h6.read_unread,
    View.ld_unit_zero (S := S1x1024x128) origin, View.ld_unit_zero (S := S1x1024x1024) origin]

/-- and writes the output block: the output store's value of the tile it has just stored and read back. -/
theorem block_last (c : Dev nD) (i : grid0.Coords) (a3 : Memref sig .tc .vmem S1x1024x128 .f32) (h3 : a3.IsWhole)
    (a4 : Memref sig .tc .vmem S1x1024x128 .f32) (h4 : a4.IsWhole) (a5 : Memref sig .tc .vmem S1x1024x1024 .f32) (h5 : a5.IsWhole)
    (a6 : Memref sig .tc .vmem S1x1024x1024 .f32) (h6 : a6.IsWhole) (hc0 : ¬cond0_0 i) (hc1 : cond0_1 i)
    (x0 x1 : Vec F S1x1024x128 .f32) (xs : Vec F S1x1024x1024 .f32) :
    out0_C_2 c i a3 h3 a4 h4 a5 h5 a6 h6 hc0 hc1 x0 x1 xs = k0_pay3 (k0_pay2 x0 x1 xs) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero origin]
  simp only [View.readCov_unit_zero (S := S1x1024x1024) _ origin, View.readAt_eq_ld, h3.read_unread, h4.read_unread,
    h6.read_unread, View.ld_unit_zero (S := S1x1024x128) origin, View.ld_unit_zero (S := S1x1024x1024) origin]

end Cert.KernelIdeal.Tile

end
-- ==== Proof.TileStep.lean ====
/-
  The body's two store values, read at an index, over the extended reals.

  The accumulating store adds one sample's term onto the tile: at (p, q) of the tile the term is the logistic of the
  inner product of row p of the first block with row q of the second — the matrix product of the first block with
  the second one transposed, into a zero accumulator, is that inner product (a change of float format is the
  identity here, and the leading unit axis only renames indices):

    step x0 x1 tile (0, p, q) = tile (0, p, q) + logistic (Σ_d x0 (0, p, d) · x1 (0, q, d))

  The output store scales by the pattern of 0.25:   scaled tile (0, p, q) = tile (0, p, q) · 0.25,
  and the cleared tile is the zero pattern everywhere.
-/
import proofs.«172165_j80668075754166_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen

/-! ### Where the block product reads its operands: output (p, q), coordinate d ↦ left (p, d), right (d, q) -/

theorem left_row (i : S1024x1024.Idx) (k : dot_S1024x128_S128x1024_S1024x1024_1_0_0_1_n_n.contr.Idx) :
    (dot_S1024x128_S128x1024_S1024x1024_1_0_0_1_n_n.lhsIdx i k 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem left_coord (i : S1024x1024.Idx) (k : dot_S1024x128_S128x1024_S1024x1024_1_0_0_1_n_n.contr.Idx) :
    (dot_S1024x128_S128x1024_S1024x1024_1_0_0_1_n_n.lhsIdx i k 1).val = (k ⟨0, by decide⟩).val :=
  dot_S1024x128_S128x1024_S1024x1024_1_0_0_1_n_n.lhsIdx_val_of_single rfl i k
theorem right_coord (i : S1024x1024.Idx) (k : dot_S1024x128_S128x1024_S1024x1024_1_0_0_1_n_n.contr.Idx) :
    (dot_S1024x128_S128x1024_S1024x1024_1_0_0_1_n_n.rhsIdx i k 0).val = (k ⟨0, by decide⟩).val :=
  dot_S1024x128_S128x1024_S1024x1024_1_0_0_1_n_n.rhsIdx_val_of_single rfl i k
theorem right_col (i : S1024x1024.Idx) (k : dot_S1024x128_S128x1024_S1024x1024_1_0_0_1_n_n.contr.Idx) :
    (dot_S1024x128_S128x1024_S1024x1024_1_0_0_1_n_n.rhsIdx i k 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The block product into a zero accumulator, at (p, q): the inner product of the left operand's row p with the
    right operand's column q. -/
theorem product_apply (A : FVec Ideal S1024x128 .bf16) (B : FVec Ideal S128x1024 .bf16) (p q : Fin 1024) :
    matmul dot_S1024x128_S128x1024_S1024x1024_1_0_0_1_n_n none A B (constant S1024x1024 .f32 0x00000000#32) (ix2 p q)
      = ∑ d : Fin 128, A (ix2 p d) * B (ix2 d q) := by
  simp only [matmul]
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun a => Fin.ext (by
    match a with
    | ⟨0, _⟩ => exact left_row _ _
    | ⟨1, _⟩ => exact (left_coord _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun a => Fin.ext (by
    match a with
    | ⟨0, _⟩ => exact (right_coord _ _).trans hk
    | ⟨1, _⟩ => exact right_col _ _)
  rw [el, er]

/-- The accumulating store's value at (u, p, q). -/
theorem step_apply (x0 x1 : Vec Ideal S1x1024x128 .f32) (xs : Vec Ideal S1x1024x1024 .f32) (u : Fin 1) (p q : Fin 1024) :
    k0_pay2 (F := Ideal) x0 x1 xs (ix3 u p q)
      = xs (ix3 (0 : Fin 1) p q) + Ideal.logistic (∑ d : Fin 128, x0 (ix3 (0 : Fin 1) p d) * x1 (ix3 (0 : Fin 1) q d)) := by
  unfold k0_pay2
  refine (shapeCast_ab_1ab_apply _ shapeCasts_S1024x1024_S1x1024x1024 u p q).trans ?_
  refine (addf_apply _ _ (ix2 p q)).trans ?_
  refine congrArg₂ (· + ·) (shapeCast_1ab_ab_apply xs shapeCasts_S1x1024x1024_S1024x1024 p q) ?_
  refine congrArg Ideal.logistic ((product_apply _ _ p q).trans (Finset.sum_congr rfl fun d _ => ?_))
  refine congrArg₂ (· * ·) ?_ ?_
  · exact (truncf_apply (ψ := .bf16) _ bitsLt_bf16_f32 (ix2 p d)).trans (shapeCast_1ab_ab_apply x0 shapeCasts_S1x1024x128_S1024x128 p d)
  · refine (transpose_ix2_apply _ transposes_S1024x128_p1_0_S128x1024 d q).trans ?_
    exact (truncf_apply (ψ := .bf16) _ bitsLt_bf16_f32 (ix2 q d)).trans (shapeCast_1ab_ab_apply x1 shapeCasts_S1x1024x128_S1024x128 q d)

/-- The output store's value at (u, p, q). -/
theorem scaled_apply (t : Vec Ideal S1x1024x1024 .f32) (u : Fin 1) (p q : Fin 1024) :
    k0_pay3 (F := Ideal) t (ix3 u p q) = t (ix3 (0 : Fin 1) p q) * Ideal.ofBits .f32 0x3E800000#32 := by
  unfold k0_pay3
  refine (shapeCast_ab_1ab_apply _ shapeCasts_S1024x1024_S1x1024x1024 u p q).trans ?_
  refine (mulf_apply _ _ (ix2 p q)).trans ?_
  exact congrArg₂ (· * ·) (shapeCast_1ab_ab_apply t shapeCasts_S1x1024x1024_S1024x1024 p q) rfl

/-- The cleared tile is the zero pattern everywhere. -/
theorem cleared_apply (i : S1x1024x1024.Idx) : k0_pay1 (F := Ideal) i = Ideal.ofBits .f32 0x00000000#32 := by
  unfold k0_pay1
  rw [shapeCast_self]
  rfl

end Cert.KernelIdeal.Tile

end
-- ==== Proof.Running.lean ====
/-
  The tile, point by point.

  The grid has 8 × 8 tiles of 1024 × 1024 edges and, innermost, the four samples: point t works on sample t % 4 of
  the tile whose rows start at node (t / 32) · 1024 and whose columns start at node (t / 4 % 8) · 1024. Its two
  input blocks are the 1024 × 128 slabs of z1 and z2 at those nodes in that sample, so the term it adds at (p, q) is
  the probability of the edge (row start + p, column start + q) in sample t % 4.

  By induction on the point: after point t the tile holds, at (p, q), the zero pattern plus the probabilities of
  samples 0 … t % 4 of that edge, added in order. (A sample-0 point starts over from the cleared tile; every other
  point continues from what the point before left, which belongs to the same tile.) At a sample-3 point the output
  block is that sum times the pattern of 0.25: the mean.
-/
import proofs.«172165_j80668075754166_1_alg».proof.Proof.Pieces
import proofs.«172165_j80668075754166_1_alg».proof.Proof.TileStep
import proofs.«172165_j80668075754166_1_alg».proof.Proof.EdgeSpec

noncomputable section

open Idealize.ShloMosaic Idealize.ShloMosaic.TcCoe Idealize.ShloMosaic.ValueIdx Idealize.SL.Sem

namespace Cert.KernelIdeal.Tile

open Cert.KernelIdeal Cert.KernelIdeal.Gen Cert.EdgeMean

variable (m : (ℓ : Loc nD τ sig) → Buf (Elt Ideal) ℓ)

/-- The two embedding arrays as the region finds them: the launch contents. -/
abbrev z1 (c : Dev nD) : SEmb.Idx → EReal := m ((c.tc : Thread nD τ).loc main_arg0)
abbrev z2 (c : Dev nD) : SEmb.Idx → EReal := m ((c.tc : Thread nD τ).loc main_arg1)

/-- The four samples' probabilities of the edge (N, M). -/
abbrev probs (c : Dev nD) (N M : Fin 8192) : Fin 4 → EReal := fun b => prob (z1 m c) (z2 m c) b N M

/-! ### Which blocks a point works on (the printed index maps, decided over the grid) -/

theorem where0 : ∀ t : Fin cfg0.N, win0_0.index t (0 : Fin 3) = t.val % 4 ∧ win0_0.index t (1 : Fin 3) = t.val / 32
    ∧ win0_0.index t (2 : Fin 3) = 0 :=
  (by decide +kernel : ∀ t : Fin grid0.N, _)
theorem where1 : ∀ t : Fin cfg0.N, win0_1.index t (0 : Fin 3) = t.val % 4 ∧ win0_1.index t (1 : Fin 3) = t.val / 4 % 8
    ∧ win0_1.index t (2 : Fin 3) = 0 :=
  (by decide +kernel : ∀ t : Fin grid0.N, _)

/-- Point `t`'s two input blocks, at their literal type. -/
abbrev blk0 (c : Dev nD) (t : Fin cfg0.N) : Vec Ideal S1x1024x128 .f32 := iblk m c 0 t
abbrev blk1 (c : Dev nD) (t : Fin cfg0.N) : Vec Ideal S1x1024x128 .f32 := iblk m c 1 t

/-- The first block is the slab of `z1` of sample `t % 4` at the tile's rows. -/
theorem blk0_apply (c : Dev nD) (t : Fin cfg0.N) (u : Fin 1) (p : Fin 1024) (d : Fin 128) (b : Fin 4) (N : Fin 8192)
    (hb : b.val = t.val % 4) (hN : N.val = t.val / 32 * 1024 + p.val) :
    blk0 m c t (ix3 u p d) = z1 m c (ix3 b N d) := by
  obtain ⟨e0, e1, e2⟩ := where0 t
  show V m c main_arg0 (((cfg0.win 0).blk t).view.emb (ix3 u p d)) = m ((c.tc : Thread nD τ).loc main_arg0) (ix3 b N d)
  refine congrArg (m ((c.tc : Thread nD τ).loc main_arg0)) (funext fun a => Fin.ext ?_)
  match a with
  | ⟨0, _⟩ => show win0_0.index t (0 : Fin 3) * 1 + 1 * u.val = b.val; have := u.isLt; omega
  | ⟨1, _⟩ => show win0_0.index t (1 : Fin 3) * 1024 + 1 * p.val = N.val; omega
  | ⟨2, _⟩ => show win0_0.index t (2 : Fin 3) * 128 + 1 * d.val = d.val; omega

/-- The second block is the slab of `z2` of sample `t % 4` at the tile's columns. -/
theorem blk1_apply (c : Dev nD) (t : Fin cfg0.N) (u : Fin 1) (q : Fin 1024) (d : Fin 128) (b : Fin 4) (M : Fin 8192)
    (hb : b.val = t.val % 4) (hM : M.val = t.val / 4 % 8 * 1024 + q.val) :
    blk1 m c t (ix3 u q d) = z2 m c (ix3 b M d) := by
  obtain ⟨e0, e1, e2⟩ := where1 t
  show V m c main_arg1 (((cfg0.win 1).blk t).view.emb (ix3 u q d)) = m ((c.tc : Thread nD τ).loc main_arg1) (ix3 b M d)
  refine congrArg (m ((c.tc : Thread nD τ).loc main_arg1)) (funext fun a => Fin.ext ?_)
  match a with
  | ⟨0, _⟩ => show win0_1.index t (0 : Fin 3) * 1 + 1 * u.val = b.val; have := u.isLt; omega
  | ⟨1, _⟩ => show win0_1.index t (1 : Fin 3) * 1024 + 1 * q.val = M.val; omega
  | ⟨2, _⟩ => show win0_1.index t (2 : Fin 3) * 128 + 1 * d.val = d.val; omega

/-- The term point `t` adds at (p, q): the probability, in its sample, of the edge it stands for. -/
theorem term_eq (c : Dev nD) (t : Fin cfg0.N) (p q : Fin 1024) (b : Fin 4) (N M : Fin 8192)
    (hb : b.val = t.val % 4) (hN : N.val = t.val / 32 * 1024 + p.val) (hM : M.val = t.val / 4 % 8 * 1024 + q.val) :
    Ideal.logistic (∑ d : Fin 128, blk0 m c t (ix3 (0 : Fin 1) p d) * blk1 m c t (ix3 (0 : Fin 1) q d))
      = probs m c N M b := by
  show _ = Ideal.logistic (∑ d : Fin 128, z1 m c (ix3 b N d) * z2 m c (ix3 b M d))
  refine congrArg Ideal.logistic (Finset.sum_congr rfl fun d _ => ?_)
  rw [blk0_apply m c t 0 p d b N hb hN, blk1_apply m c t 0 q d b M hb hM]

/-! ### One point's effect on the tile and on the output block -/

/-- A sample-0 point leaves the zero pattern plus its term. -/
theorem tile_reset (c : Dev nD) (t : Fin cfg0.N) (h0 : t.val % 4 = 0) (u : Fin 1) (p q : Fin 1024) :
    (outsAt0 m c t.val t.isLt).2 (ix3 u p q)
      = Ideal.ofBits .f32 0x00000000#32
        + Ideal.logistic (∑ d : Fin 128, blk0 m c t (ix3 (0 : Fin 1) p d) * blk1 m c t (ix3 (0 : Fin 1) q d)) := by
  have h1 : ¬t.val % 4 = 3 := by omega
  rw [outsAt0_A m c t h0 h1]
  dsimp only
  refine (congrFun (tile_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (blk0 m c t) (blk1 m c t)) (ix3 u p q)).trans ?_
  refine (step_apply (blk0 m c t) (blk1 m c t) (k0_pay1 (F := Ideal)) u p q).trans ?_
  rw [cleared_apply]

/-- Any other point adds its term onto what the point before left. -/
theorem tile_add (c : Dev nD) (t : Fin cfg0.N) (h0 : ¬t.val % 4 = 0) (u : Fin 1) (p q : Fin 1024) :
    (outsAt0 m c t.val t.isLt).2 (ix3 u p q)
      = (outsAt0 m c (t.val - 1) (Nat.lt_of_le_of_lt (Nat.sub_le _ _) t.isLt)).2 (ix3 (0 : Fin 1) p q)
        + Ideal.logistic (∑ d : Fin 128, blk0 m c t (ix3 (0 : Fin 1) p d) * blk1 m c t (ix3 (0 : Fin 1) q d)) := by
  by_cases h1 : t.val % 4 = 3
  · rw [outsAt0_C m c t h0 h1]
    dsimp only
    refine (congrFun (tile_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (blk0 m c t) (blk1 m c t) (outsAt0 m c (t.val - 1) (Nat.lt_of_le_of_lt (Nat.sub_le _ _) t.isLt)).2) (ix3 u p q)).trans ?_
    exact step_apply (blk0 m c t) (blk1 m c t) (outsAt0 m c (t.val - 1) (Nat.lt_of_le_of_lt (Nat.sub_le _ _) t.isLt)).2 u p q
  · rw [outsAt0_B m c t h0 h1]
    dsimp only
    refine (congrFun (tile_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (blk0 m c t) (blk1 m c t) (outsAt0 m c (t.val - 1) (Nat.lt_of_le_of_lt (Nat.sub_le _ _) t.isLt)).2) (ix3 u p q)).trans ?_
    exact step_apply (blk0 m c t) (blk1 m c t) (outsAt0 m c (t.val - 1) (Nat.lt_of_le_of_lt (Nat.sub_le _ _) t.isLt)).2 u p q

/-- A sample-3 point writes, into the output block, the tile it has just updated times the pattern of 0.25. -/
theorem block_out (c : Dev nD) (t : Fin cfg0.N) (h1 : t.val % 4 = 3) (u : Fin 1) (p q : Fin 1024) :
    (outsAt0 m c t.val t.isLt).1 (ix3 u p q)
      = ((outsAt0 m c (t.val - 1) (Nat.lt_of_le_of_lt (Nat.sub_le _ _) t.isLt)).2 (ix3 (0 : Fin 1) p q)
          + Ideal.logistic (∑ d : Fin 128, blk0 m c t (ix3 (0 : Fin 1) p d) * blk1 m c t (ix3 (0 : Fin 1) q d)))
        * Ideal.ofBits .f32 0x3E800000#32 := by
  have h0 : ¬t.val % 4 = 0 := by omega
  rw [outsAt0_C m c t h0 h1]
  dsimp only
  refine (congrFun (block_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (blk0 m c t) (blk1 m c t) (outsAt0 m c (t.val - 1) (Nat.lt_of_le_of_lt (Nat.sub_le _ _) t.isLt)).2) (ix3 u p q)).trans ?_
  refine (scaled_apply _ u p q).trans ?_
  exact congrArg (· * Ideal.ofBits .f32 0x3E800000#32) (step_apply (blk0 m c t) (blk1 m c t) (outsAt0 m c (t.val - 1) (Nat.lt_of_le_of_lt (Nat.sub_le _ _) t.isLt)).2 (0 : Fin 1) p q)

/-! ### The induction over the points -/

/-- After point `n` the tile holds, at (p, q), the running numerator of the mean of the edge the point stands for,
    through sample `n % 4`. -/
theorem running (c : Dev nD) : ∀ (n : ℕ) (hn : n < cfg0.N) (u : Fin 1) (p q : Fin 1024) (N M : Fin 8192),
    N.val = n / 32 * 1024 + p.val → M.val = n / 4 % 8 * 1024 + q.val →
    (outsAt0 m c n hn).2 (ix3 u p q) = partialSum (probs m c N M) (n % 4)
  | 0, hn, u, p, q, N, M, hN, hM => by
    refine (tile_reset m c ⟨0, hn⟩ rfl u p q).trans ?_
    rw [term_eq m c ⟨0, hn⟩ p q 0 N M rfl hN hM]
    rfl
  | k + 1, hn, u, p, q, N, M, hN, hM => by
    by_cases h0 : (k + 1) % 4 = 0
    · refine (tile_reset m c ⟨k + 1, hn⟩ h0 u p q).trans ?_
      rw [term_eq m c ⟨k + 1, hn⟩ p q 0 N M (by show (0 : ℕ) = (k + 1) % 4; omega) hN hM, h0]
      rfl
    · refine (tile_add m c ⟨k + 1, hn⟩ h0 u p q).trans ?_
      have ih := running c k (Nat.lt_of_succ_lt hn) (0 : Fin 1) p q N M (by omega) (by omega)
      obtain ⟨j, hj⟩ : ∃ j, (k + 1) % 4 = j + 1 := ⟨(k + 1) % 4 - 1, by omega⟩
      have hkj : k % 4 = j := by omega
      rw [hj]
      show (outsAt0 m c k (Nat.lt_of_succ_lt hn)).2 (ix3 (0 : Fin 1) p q) + _
        = partialSum (probs m c N M) j + probs m c N M ⟨(j + 1) % 4, Nat.mod_lt _ (by decide)⟩
      rw [ih, hkj, term_eq m c ⟨k + 1, hn⟩ p q ⟨(j + 1) % 4, Nat.mod_lt _ (by decide)⟩ N M
        (by show (j + 1) % 4 = (k + 1) % 4; omega) hN hM]

/-- So a sample-3 point writes the mean of the edges of its tile. -/
theorem block_mean (c : Dev nD) (t : Fin cfg0.N) (h1 : t.val % 4 = 3) (u : Fin 1) (p q : Fin 1024) (N M : Fin 8192)
    (hN : N.val = t.val / 32 * 1024 + p.val) (hM : M.val = t.val / 4 % 8 * 1024 + q.val) :
    (outsAt0 m c t.val t.isLt).1 (ix3 u p q) = (∑ b : Fin 4, probs m c N M b) * quarter := by
  refine (block_out m c t h1 u p q).trans ?_
  have hpos : 0 < t.val := by omega
  rw [running m c (t.val - 1) (Nat.lt_of_le_of_lt (Nat.sub_le _ _) t.isLt) (0 : Fin 1) p q N M (by omega) (by omega),
    term_eq m c t p q (3 : Fin 4) N M (by show 3 = t.val % 4; omega) hN hM,
    show (t.val - 1) % 4 = 2 by omega]
  exact partialSum_mean (probs m c N M)

end Cert.KernelIdeal.Tile

end
-- ==== Proof.Blocks.lean ====
/-
  From the blocks to the edge array.

  Only the sample-3 points write the output back, and point t's block is the 1024 × 1024 tile whose rows start at
  node (t / 32) · 1024 and whose columns start at node (t / 4 % 8) · 1024. What such a point writes is that tile of
  the mean (the induction over the points), so every write-back writes a block of ONE array, the edge array of the
  specification. The 64 tiles cover the array: the edge (0, n, m) lies in the tile of the sample-3 point
  ((n / 1024) · 8 + m / 1024) · 4 + 3. Hence the output array ends holding the edge array.
-/
import proofs.«172165_j80668075754166_1_alg».proof.Proof.Running

noncomputable section

open Idealize.ShloMosaic Idealize.ShloMosaic.TcCoe Idealize.ShloMosaic.ValueIdx Idealize.SL.Sem
open Idealize.ShloMosaic.Pipeline (Dat)

namespace Cert.KernelIdeal.Tile

open Cert.KernelIdeal Cert.KernelIdeal.Gen Cert.EdgeMean

variable (m : (ℓ : Loc nD τ sig) → Buf (Elt Ideal) ℓ)

/-- The output window's block index at a point (the printed index map, decided over the grid). -/
theorem where2 : ∀ t : Fin cfg0.N, win0_2.index t (0 : Fin 3) = 0 ∧ win0_2.index t (1 : Fin 3) = t.val / 32
    ∧ win0_2.index t (2 : Fin 3) = t.val / 4 % 8 :=
  (by decide +kernel : ∀ t : Fin grid0.N, _)

/-- The specification's edge array of the launch contents, as contents of the output array. -/
abbrev edges (c : Dev nD) : Buf (Elt Ideal) ((c.tc : Thread nD τ).loc main_v0) := edge (z1 m c) (z2 m c)

/-- What a write-back writes is its block of the edge array. -/
theorem flushed_eq (c : Dev nD) (t : Fin cfg0.N) (hf : (cfg0.win 2).flush t = true) :
    (dats m 0 c).flushed 2 t = ((cfg0.win 2).blk t).view.read (Elt Ideal) (edges m c) := by
  have h3 : t.val % 4 = 3 := (flush0_2 t).mp hf
  obtain ⟨e0, e1, e2⟩ := where2 t
  have hlt : t.val < 256 := lt_of_lt_of_eq t.isLt N_0
  show (cfg0.win 2).cut (grid0.coords t) ((dats m 0 c).after 2 t) = _
  rw [after0_2]
  suffices h : ∀ j : S1x1024x1024.Idx,
      (outsAt0 m c t.val t.isLt).1 j = edge (z1 m c) (z2 m c) (((cfg0.win 2).blk t).view.emb j) from funext h
  intro j
  have hj1 : (j 1).val < 1024 := (j 1).isLt
  have hj2 : (j 2).val < 1024 := (j 2).isLt
  have hN' : (((cfg0.win 2).blk t).view.emb j) 1 = (⟨t.val / 32 * 1024 + (j 1).val, by omega⟩ : Fin 8192) :=
    Fin.ext (by show win0_2.index t (1 : Fin 3) * 1024 + 1 * (j 1).val = t.val / 32 * 1024 + (j 1).val; omega)
  have hM' : (((cfg0.win 2).blk t).view.emb j) 2 = (⟨t.val / 4 % 8 * 1024 + (j 2).val, by omega⟩ : Fin 8192) :=
    Fin.ext (by show win0_2.index t (2 : Fin 3) * 1024 + 1 * (j 2).val = t.val / 4 % 8 * 1024 + (j 2).val; omega)
  show _ = (∑ b : Fin 4, prob (z1 m c) (z2 m c) b ((((cfg0.win 2).blk t).view.emb j) 1) ((((cfg0.win 2).blk t).view.emb j) 2)) * quarter
  rw [hN', hM']
  exact (congrArg (outsAt0 m c t.val t.isLt).1 (eq_ix3 j)).trans (block_mean m c t h3 (j 0) (j 1) (j 2) _ _ rfl rfl)

/-- An edge is in point `t`'s block iff each coordinate is in the block's range on its axis. -/
theorem mem_blk (t : Fin cfg0.N) (i : S1x8192x8192.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every edge lies in the block of the sample-3 point of its tile. -/
theorem covered (i : S1x8192x8192.Idx) :
    ∃ t : Fin cfg0.N, (cfg0.win 2).flush t = true ∧ i ∈ ((cfg0.win 2).blk t).view.set := by
  have h0 : (i 0).val < 1 := (i 0).isLt
  have h1 : (i 1).val < 8192 := (i 1).isLt
  have h2 : (i 2).val < 8192 := (i 2).isLt
  have hN : cfg0.N = 256 := N_0
  obtain ⟨t, ht⟩ : ∃ t : Fin cfg0.N, t.val = ((i 1).val / 1024 * 8 + (i 2).val / 1024) * 4 + 3 :=
    ⟨⟨((i 1).val / 1024 * 8 + (i 2).val / 1024) * 4 + 3, by rw [hN]; omega⟩, rfl⟩
  obtain ⟨e0, e1, e2⟩ := where2 t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The output array after the run is the edge array. -/
theorem final_edges (c : Dev nD) : (dats m 0 c).arrAt 2 cfg0.N = edges m c :=
  (dats m 0 c).arrAt_eq_of_cover 2 (edges m c) (flushed_eq m c) covered

end Cert.KernelIdeal.Tile

end
-- ==== Proof.KernelRun.lean ====
/-
  The kernel program's run, with every result named.

  The edge array is what the region leaves (the blocks cover it). The fourth result is computed by the host lines
  after the region from the third argument alone — negate, exponential, add one, reciprocal of one over it, element by
  element: the logistic spelled out —; those lines read no array of the region, so they see the third argument as
  launched. The two embedding arrays are returned as they came.
-/
import proofs.«172165_j80668075754166_1_alg».proof.Proof.Blocks
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Tile

open Cert.KernelIdeal Cert.KernelIdeal.Gen Cert.EdgeMean

variable (m : (ℓ : Loc nD τ sig) → Buf (Elt Ideal) ℓ) (ρ : Dev nD → PrngReg)

/-- The logistic as the host spells it, of a 128-vector: 1 / (1 + exp (−x)). -/
abbrev spelled (x : (⟨S1x128, .f32⟩ : BufTy).Contents (Elt Ideal)) : (⟨S1x128, .f32⟩ : BufTy).Contents (Elt Ideal) :=
  Host.divf (broadcastInDim S1x128 ![] bcast_S_S1x128 (constant (F := Ideal) S_ .f32 0x3F800000#32))
    (addf (broadcastInDim S1x128 ![] bcast_S_S1x128 (constant (F := Ideal) S_ .f32 0x3F800000#32)) (Host.exp (Host.negf x)))

/-- The lines after the region leave, in the fourth result, the spelled-out logistic of the third argument. -/
theorem tail_logistic (c : Dev nD) :
    Pipeline.afterTail₀ cfgs (dats m) 0 (V0 m) [hostOps1] c main_v6 = spelled (m ((c.tc : Thread nD τ).loc main_arg2)) := by
  unfold Pipeline.afterTail₀
  show StableHlo.after hostOps1 _ (Proc.devRef .tc main_v6) = _
  after_results
  rw [Pipeline.withArrays_of_ne _ c (V0 m c) _ main_arg2 (by exact (by decide : ∀ w, Pipeline.arrRef spec0 w ≠ main_arg2))]
  rfl

/-- The run: the edge array at the specification's, the embeddings returned, the fourth result the spelled-out logistic,
    the arguments unchanged. -/
theorem run : θ_run defs (onTc (τ := τ) (main (F := Ideal))) ⟨m, fun _ => 0, ρ⟩ fun r => ∀ c : Dev nD,
      r.2.mem ((c.tc : Thread nD τ).loc main_v0) = edges m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v6) = spelled (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have k0 := ((h c).1 0).trans (((dats m 0 c).arrAt_in 0 rfl _).trans ((A_eq m c 0).trans (V_main_arg0 m c)))
    have k1 := ((h c).1 1).trans (((dats m 0 c).arrAt_in 1 rfl _).trans ((A_eq m c 1).trans (V_main_arg1 m c)))
    ⟨((h c).1 2).trans (final_edges m c), k0, k1,
      ((h c).2 main_v6 (Pipeline.mem_restRefs_of main_v6 (by decide) (by decide))).trans (tail_logistic m c),
      k0, k1,
      ((h c).2 main_arg2 (Pipeline.mem_restRefs_of main_arg2 (by decide) (by decide))).trans (W_main_arg2 m (dats m) c)⟩)
    (run_main m ρ)

end Cert.KernelIdeal.Tile

end
-- ==== Proof.lean ====
/-
  Edge probabilities of a graph decoder: for two arrays of node embeddings z1, z2 (4 samples × 8192 nodes × 128
  coordinates) the kernel and the reference both return the mean over the samples of logistic (z1[b, n, ·] · z2[b, m, ·])
  for every pair of nodes, the two embedding arrays themselves, and the logistic of a 128-vector.

  The kernel walks an 8 × 8 grid of 1024 × 1024 tiles with the four samples innermost, keeping a running tile in a
  scratch buffer: cleared at sample 0, one sample's term added per point, written out times 0.25 at sample 3. The
  reference contracts, applies the logistic spelled out (negate, exponential, add one, reciprocal), sums over the
  samples from a zero and divides by 4. Over the extended reals the logistic IS that spelled-out expression, a change
  of float format is the identity, sums may be regrouped, and dividing by 4 is multiplying by 0.25 = ¼ exactly; so
  both edge arrays are the specification's (EdgeSpec). The fourth result is the same host expression on both sides.

  Modules: EdgeSpec (the specification and the one law), RefEdge (the reference computes it), Pieces and TileStep
  (what one grid point leaves, as arithmetic at an index), Running (the induction over the points), Blocks (the
  write-backs cover the array), KernelRun (the kernel program's results).
-/
import proofs.«172165_j80668075754166_1_alg».proof.Defs
import proofs.«172165_j80668075754166_1_alg».proof.Proof.Gen.Kernel
import proofs.«172165_j80668075754166_1_alg».proof.Proof.Gen.Kernel.Skeleton
import proofs.«172165_j80668075754166_1_alg».proof.Proof.Gen.Kernel.Launch
import proofs.«172165_j80668075754166_1_alg».proof.Proof.Gen.Kernel.Points
import proofs.«172165_j80668075754166_1_alg».proof.Proof.Gen.Kernel.Frame
import proofs.«172165_j80668075754166_1_alg».proof.Proof.Gen.KernelIdeal
import proofs.«172165_j80668075754166_1_alg».proof.Proof.Gen.KernelIdeal.Skeleton
import proofs.«172165_j80668075754166_1_alg».proof.Proof.Gen.KernelIdeal.Launch
import proofs.«172165_j80668075754166_1_alg».proof.Proof.Gen.KernelIdeal.Points
import proofs.«172165_j80668075754166_1_alg».proof.Proof.Gen.KernelIdeal.Frame
import proofs.«172165_j80668075754166_1_alg».proof.Proof.Gen.ReferenceIdeal
import proofs.«172165_j80668075754166_1_alg».proof.Proof.Gen.ReferenceIdeal.Run
import proofs.«172165_j80668075754166_1_alg».proof.Proof.Gen.ReferenceIdeal.Read
import proofs.«172165_j80668075754166_1_alg».proof.Proof.Gen.Pre_finite_inputs
import proofs.«172165_j80668075754166_1_alg».proof.Proof.RefEdge
import proofs.«172165_j80668075754166_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => ⟨(h c).2.1, (h c).2.2.1, (h c).2.2.2.2.2.2⟩)
    (Cert.ReferenceIdeal.Value.run (F := Ideal) m ρ)

/-- Both programs end with the specification's edge array, the embeddings as launched, and the spelled-out logistic
    of the third argument. -/
theorem algebraic : Cert.algebraic_KernelIdeal_ReferenceIdeal := by
  intro m ρ m' ρ' _ hagree
  refine ⟨fun c => Cert.KernelIdeal.Tile.edges m c, _, _, _, Cert.KernelIdeal.Tile.run m ρ, ?_⟩
  refine (θ_run Cert.ReferenceIdeal.defs _ _).mono (fun _ h c => ?_) (Cert.ReferenceIdeal.Value.run (F := Ideal) m' ρ')
  obtain ⟨h16, ha0, ha1, h5, hb0, hb1, hb2⟩ := h c
  obtain ⟨g0, g1, g2⟩ := hagree c
  refine ⟨?_, ha0.trans g0, ha1.trans g1, ?_, hb0, hb1, hb2⟩
  · rw [h16, Cert.ReferenceIdeal.Read.val_main_v16_eq, Cert.ReferenceIdeal.RefValue.ref_edge, g0, g1]
  · rw [h5, g2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
